-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16x32 .f32) (main_arg7 : FVec F S16x32 .f32) (main_arg8 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S16x32 .f32 := Host.absf main_arg6
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16x32 .f32 := Host.absf main_arg7
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S32x64 .f32) (main_arg4 : FVec F S32x64 .f32) (main_arg5 : FVec F S32 .f32) (main_arg6 : FVec F S16x32 .f32) (main_arg7 : FVec F S16x32 .f32) (main_arg8 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x32 : Shape := ⟨2, ![64, 32]⟩
abbrev S1x32 : Shape := ⟨2, ![1, 32]⟩
abbrev S100000x32 : Shape := ⟨2, ![100000, 32]⟩
abbrev S5000x64 : Shape := ⟨2, ![5000, 64]⟩
abbrev S5000x32 : Shape := ⟨2, ![5000, 32]⟩
abbrev S1600000x32 : Shape := ⟨2, ![1600000, 32]⟩
abbrev S32x16 : Shape := ⟨2, ![32, 16]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 67
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S16x32, .f32⟩
  | .hbm, ⟨7, _⟩ => ⟨S16x32, .f32⟩
  | .hbm, ⟨8, _⟩ => ⟨S16, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x32, .f32⟩
  | .hbm, ⟨35, _⟩ => ⟨S64x32, .f32⟩
  | .hbm, ⟨36, _⟩ => ⟨S1x32, .f32⟩
  | .hbm, ⟨37, _⟩ => ⟨S100000x32, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x32, .f32⟩
  | .hbm, ⟨47, _⟩ => ⟨S_, .f32⟩
  | .hbm, ⟨48, _⟩ => ⟨S100000x32, .f32⟩
  | .hbm, ⟨49, _⟩ => ⟨S1600000x1, .i32⟩
  | .hbm, ⟨50, _⟩ => ⟨S100000x32, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x32, .f32⟩
  | .hbm, ⟨62, _⟩ => ⟨S100000x32, .f32⟩
  | .hbm, ⟨63, _⟩ => ⟨S32x16, .f32⟩
  | .hbm, ⟨64, _⟩ => ⟨S32x16, .f32⟩
  | .hbm, ⟨65, _⟩ => ⟨S1x16, .f32⟩
  | .hbm, ⟨66, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x32, .f32⟩
  | .local _ .vmem, ⟨5, _⟩ => ⟨S64x32, .f32⟩
  | .local _ .vmem, ⟨6, _⟩ => ⟨S1x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x16, .f32⟩
  | .local _ .vmem, ⟨14, _⟩ => ⟨S32x16, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S32x64_S64x32_1_0 : S32x64.Transposes [1, 0] S64x32
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  shapeCasts_S16_S1x16 : S16.ShapeCasts S1x16
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x32 : Shape := ⟨2, ![64, 32]⟩
abbrev S100000x32 : Shape := ⟨2, ![100000, 32]⟩
abbrev S1x32 : Shape := ⟨2, ![1, 32]⟩
abbrev S1600000x32 : Shape := ⟨2, ![1600000, 32]⟩
abbrev S32x16 : Shape := ⟨2, ![32, 16]⟩
abbrev S100000x16 : Shape := ⟨2, ![100000, 16]⟩
abbrev S1x16 : Shape := ⟨2, ![1, 16]⟩

abbrev nBuf : Space → Nat
  | .hbm => 75
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S32x64, .f32⟩
  | .hbm, ⟨5, _⟩ => ⟨S32, .f32⟩
  | .hbm, ⟨6, _⟩ => ⟨S16x32, .f32⟩
  | .hbm, ⟨7, _⟩ => ⟨S16x32, .f32⟩
  | .hbm, ⟨8, _⟩ => ⟨S16, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S64x32, .f32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S64x32, .f32⟩
  | .hbm, ⟨40, _⟩ => ⟨S100000x32, .f32⟩
  | .hbm, ⟨41, _⟩ => ⟨S100000x32, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x32, .f32⟩
  | .hbm, ⟨51, _⟩ => ⟨S_, .f32⟩
  | .hbm, ⟨52, _⟩ => ⟨S100000x32, .f32⟩
  | .hbm, ⟨53, _⟩ => ⟨S1600000x1, .i32⟩
  | .hbm, ⟨54, _⟩ => ⟨S100000x32, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x32, .f32⟩
  | .hbm, ⟨66, _⟩ => ⟨S100000x32, .f32⟩
  | .hbm, ⟨67, _⟩ => ⟨S32x16, .f32⟩
  | .hbm, ⟨68, _⟩ => ⟨S100000x16, .f32⟩
  | .hbm, ⟨69, _⟩ => ⟨S1x16, .f32⟩
  | .hbm, ⟨70, _⟩ => ⟨S100000x16, .f32⟩
  | .hbm, ⟨71, _⟩ => ⟨S100000x16, .f32⟩
  | .hbm, ⟨72, _⟩ => ⟨S32x16, .f32⟩
  | .hbm, ⟨73, _⟩ => ⟨S100000x16, .f32⟩
  | .hbm, ⟨74, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KernelHost.lean ====
/-
  The host operations of the kernel's @main, read as values. Before each pallas_call the host computes, from the node
  features `h` (the input `x` for the first layer, the first layer's output for the second) and the edge lists:
  the edge sources wrapped into range, `h` gathered at them, the gathered rows summed into their destination rows, the
  in-degree counted the same way, and the quotient by `max(degree, 1)` — the neighbour MEAN —; beside it the two weight
  matrices transposed and the bias reshaped to one row. Here each buffer a region reads is named as that function of
  the launch memory (`mean1`, `mean2` spell the chain once, operation by operation, as @main prints it).
-/
import proofs.«121814_j19000935317832_1_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The neighbour mean of 64-wide features: sum over incoming edges of the source's row, over `max(in-degree, 1)`. -/
def mean1 (x : FVec F S100000x64 .f32) (src dst : IVec S1600000 32) : FVec F S100000x64 .f32 :=
  Host.divf
    (Host.scatterAdd scatter_S100000x64_S1600000x1_S1600000x64_1_0_0_1
      (broadcastInDim S100000x64 ![] Facts₀.bcast_S_S100000x64 (constant (F := F) S_ .f32 0x00000000#32))
      (broadcastInDim S1600000x1 ![0] Facts₀.bcast_S1600000_S1600000x1_0 dst)
      (Host.gather gather_S100000x64_S1600000x1_S1600000x64_1_0_n_n_0_1_164 x
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src))))
    (broadcastInDim S100000x64 ![0, 1] Facts₀.bcast_S100000x1_S100000x64_0_1
      (broadcastInDim S100000x1 ![0] Facts₀.bcast_S100000_S100000x1_0
        (maximumf
          (Host.scatterAdd scatter_S100000_S1600000x1_S1600000_n_0_0_1
            (broadcastInDim S100000 ![] Facts₀.bcast_S_S100000 (constant (F := F) S_ .f32 0x00000000#32))
            (broadcastInDim S1600000x1 ![0] Facts₀.bcast_S1600000_S1600000x1_0 dst)
            (broadcastInDim S1600000 ![] Facts₀.bcast_S_S1600000 (constant (F := F) S_ .f32 0x3F800000#32)))
          (broadcastInDim S100000 ![] Facts₀.bcast_S_S100000 (constant (F := F) S_ .f32 0x3F800000#32)))))

/-- The neighbour mean of 32-wide features. -/
def mean2 (h : FVec F S100000x32 .f32) (src dst : IVec S1600000 32) : FVec F S100000x32 .f32 :=
  Host.divf
    (Host.scatterAdd scatter_S100000x32_S1600000x1_S1600000x32_1_0_0_1
      (broadcastInDim S100000x32 ![] Facts₀.bcast_S_S100000x32 (constant (F := F) S_ .f32 0x00000000#32))
      (broadcastInDim S1600000x1 ![0] Facts₀.bcast_S1600000_S1600000x1_0 dst)
      (Host.gather gather_S100000x32_S1600000x1_S1600000x32_1_0_n_n_0_1_132 h
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src))))
    (broadcastInDim S100000x32 ![0, 1] Facts₀.bcast_S100000x1_S100000x32_0_1
      (broadcastInDim S100000x1 ![0] Facts₀.bcast_S100000_S100000x1_0
        (maximumf
          (Host.scatterAdd scatter_S100000_S1600000x1_S1600000_n_0_0_1
            (broadcastInDim S100000 ![] Facts₀.bcast_S_S100000 (constant (F := F) S_ .f32 0x00000000#32))
            (broadcastInDim S1600000x1 ![0] Facts₀.bcast_S1600000_S1600000x1_0 dst)
            (broadcastInDim S1600000 ![] Facts₀.bcast_S_S1600000 (constant (F := F) S_ .f32 0x3F800000#32)))
          (broadcastInDim S100000 ![] Facts₀.bcast_S_S100000 (constant (F := F) S_ .f32 0x3F800000#32)))))

variable (m : (ℓ : Loc nD τ sig) → Buf (Elt F) ℓ) (ρ : Dev nD → PrngReg)

/-! ## What the first region finds -/

theorem V1_arg0 (c : Dev nD) : V1 m ρ c main_arg0 = m ((c : Thread nD τ).loc main_arg0) := by
  show StableHlo.after hostOps0 (W0 m ρ c) (Proc.devRef .tc main_arg0) = _
  after_results <;> rfl

set_option maxHeartbeats 4000000 in
theorem V1_v18 (c : Dev nD) : V1 m ρ c main_v18
    = mean1 (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem V1_v19 (c : Dev nD) : V1 m ρ c main_v19
    = transpose S64x32 [1, 0] (m ((c : Thread nD τ).loc main_arg3)) Facts₀.transposes_S32x64_S64x32_1_0 := by
  show StableHlo.after hostOps0 (W0 m ρ c) (Proc.devRef .tc main_v19) = _
  after_results <;> rfl

theorem V1_v20 (c : Dev nD) : V1 m ρ c main_v20
    = transpose S64x32 [1, 0] (m ((c : Thread nD τ).loc main_arg4)) Facts₀.transposes_S32x64_S64x32_1_0 := by
  show StableHlo.after hostOps0 (W0 m ρ c) (Proc.devRef .tc main_v20) = _
  after_results <;> rfl

theorem V1_v21 (c : Dev nD) : V1 m ρ c main_v21
    = shapeCast S1x32 (m ((c : Thread nD τ).loc main_arg5)) Facts₀.shapeCasts_S32_S1x32 := by
  show StableHlo.after hostOps0 (W0 m ρ c) (Proc.devRef .tc main_v21) = _
  after_results <;> rfl

/-! ## What the first region leaves, and what the second region finds -/

/-- An argument array no host operation and no region writes reads, after the first region, what it held at launch. -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

/-- The first region's output array after the region is what its write-backs leave. -/
theorem W2_v22 (c : Dev nD) : W2 m ρ c (Proc.devRef .tc main_v22) = (dat0 (V1 m ρ) c).arrAt 5 cfg0.N :=
  W2_arr m ρ c 5

theorem V3_v22 (c : Dev nD) : V3 m ρ c main_v22 = W2 m ρ c (Proc.devRef .tc main_v22) := by
  show StableHlo.after hostOps1 (W2 m ρ c) (Proc.devRef .tc main_v22) = _
  after_results <;> rfl

set_option maxHeartbeats 4000000 in
theorem V3_v41 (c : Dev nD) : V3 m ρ c main_v41
    = mean2 (W2 m ρ c (Proc.devRef .tc main_v22)) (W2 m ρ c (Proc.devRef .tc main_arg1)) (W2 m ρ c (Proc.devRef .tc main_arg2)) := by
  show StableHlo.after hostOps1 (W2 m ρ c) (Proc.devRef .tc main_v41) = _
  after_results_simp <;> rfl

theorem V3_v42 (c : Dev nD) : V3 m ρ c main_v42
    = transpose S32x16 [1, 0] (W2 m ρ c (Proc.devRef .tc main_arg6)) Facts₀.transposes_S16x32_S32x16_1_0 := by
  show StableHlo.after hostOps1 (W2 m ρ c) (Proc.devRef .tc main_v42) = _
  after_results <;> rfl

theorem V3_v43 (c : Dev nD) : V3 m ρ c main_v43
    = transpose S32x16 [1, 0] (W2 m ρ c (Proc.devRef .tc main_arg7)) Facts₀.transposes_S16x32_S32x16_1_0 := by
  show StableHlo.after hostOps1 (W2 m ρ c) (Proc.devRef .tc main_v43) = _
  after_results <;> rfl

theorem V3_v44 (c : Dev nD) : V3 m ρ c main_v44
    = shapeCast S1x16 (W2 m ρ c (Proc.devRef .tc main_arg8)) Facts₀.shapeCasts_S16_S1x16 := by
  show StableHlo.after hostOps1 (W2 m ρ c) (Proc.devRef .tc main_v44) = _
  after_results <;> rfl

end Cert.KernelIdeal.HostValue

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Combine.lean ====
/-
  One GraphSAGE layer's affine combine, as a function of whole arrays at the ideal values:
  at output entry `(p, q)` it is

      (Σ_k x(p,k)·ws(k,q)  +  Σ_k mn(p,k)·wn(k,q))  +  b(0,q),

  the node's own features times the self weights, plus the neighbour mean times the neighbour weights, plus the bias row.
  The device body computes exactly this on a block of rows (two products into zero accumulators, added, the bias row
  broadcast over the rows and added last; the changes of float format are the identity at the ideal values). The host
  reference adds the bias to the first product BEFORE adding the second product; addition of extended reals is
  commutative and associative, so the two groupings agree with no finiteness needed.
  The function reads row `p` of `x` and `mn` only, so a block of rows of the result is the function of the same block of
  rows of the operands (`combine_congr`).
-/
import Idealize.ShloMosaic.Lib.ValueIdx
import Idealize.ShloMosaic.Lib.ValueLayout
import Idealize.ShloMosaic.Lib.Pipeline.Value
import Idealize.ShloMosaic.PureOps.Ideal.Laws
import proofs.«121814_j19000935317832_1_alg».proof.Proof.LibPlainDot

noncomputable section

namespace Cert.Sage

open Idealize.ShloMosaic Idealize.ShloMosaic.ValueIdx

variable {M K N : ℕ}

/-- The combine of one layer, entry by entry. -/
def combine (x mn : (⟨2, ![M, K]⟩ : Shape).Idx → EReal) (ws wn : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * ws (ix2 k (i 1)) + ∑ k : Fin K, mn (ix2 (i 0) k) * wn (ix2 k (i 1)))
    + b (ix2 (0 : Fin 1) (i 1))

theorem combine_apply (x mn : (⟨2, ![M, K]⟩ : Shape).Idx → EReal) (ws wn : (⟨2, ![K, N]⟩ : Shape).Idx → EReal)
    (b : (⟨2, ![1, N]⟩ : Shape).Idx → EReal) (p : Fin M) (q : Fin N) :
    combine x mn ws wn b (ix2 p q)
      = (∑ k : Fin K, x (ix2 p k) * ws (ix2 k q) + ∑ k : Fin K, mn (ix2 p k) * wn (ix2 k q)) + b (ix2 (0 : Fin 1) q) := rfl

/-- Two combines agree at two entries whose rows of `x`, `mn`, columns of `ws`, `wn` and bias entries agree. -/
theorem combine_congr {M' : ℕ} (x mn : (⟨2, ![M, K]⟩ : Shape).Idx → EReal) (x' mn' : (⟨2, ![M', K]⟩ : Shape).Idx → EReal)
    (ws wn ws' wn' : (⟨2, ![K, N]⟩ : Shape).Idx → EReal) (b b' : (⟨2, ![1, N]⟩ : Shape).Idx → EReal)
    (i : (⟨2, ![M, N]⟩ : Shape).Idx) (i' : (⟨2, ![M', N]⟩ : Shape).Idx)
    (hx : ∀ k, x' (ix2 (i' 0) k) = x (ix2 (i 0) k)) (hmn : ∀ k, mn' (ix2 (i' 0) k) = mn (ix2 (i 0) k))
    (hws : ∀ k, ws' (ix2 k (i' 1)) = ws (ix2 k (i 1))) (hwn : ∀ k, wn' (ix2 k (i' 1)) = wn (ix2 k (i 1)))
    (hb : b' (ix2 (0 : Fin 1) (i' 1)) = b (ix2 (0 : Fin 1) (i 1))) :
    combine x' mn' ws' wn' b' i' = combine x mn ws wn b i := by
  unfold combine
  simp only [hx, hmn, hws, hwn, hb]

/-- The device body's value on a block: the two products into zero accumulators, added, plus the broadcast bias row. -/
theorem body_eq (d : DotDims ⟨2, ![M, K]⟩ ⟨2, ![K, N]⟩ ⟨2, ![M, N]⟩) (hd : d = DotDims.plain M K N)
    (x mn : FVec Ideal ⟨2, ![M, K]⟩ .f32) (ws wn : FVec Ideal ⟨2, ![K, N]⟩ .f32) (b : FVec Ideal ⟨2, ![1, N]⟩ .f32)
    (hlt : FTy.bits .bf16 < FTy.bits .f32)
    (hw : (⟨2, ![K, N]⟩ : Shape).ShapeCasts ⟨2, ![K, N]⟩)
    (hb : (⟨2, ![1, N]⟩ : Shape).ShapeCasts ⟨2, ![1, N]⟩) (hbr : (⟨2, ![1, N]⟩ : Shape).Broadcasts ⟨2, ![M, N]⟩)
    (x1 : FVec Ideal ⟨2, ![M, K]⟩ .f32) (hx1 : x1 = x)
    (mn1 : FVec Ideal ⟨2, ![M, K]⟩ .f32) (hmn1 : mn1 = mn) :
    addf (addf (matmul d none (truncf .bf16 x1 hlt) (truncf .bf16 (shapeCast ⟨2, ![K, N]⟩ ws hw) hlt) (constant ⟨2, ![M, N]⟩ .f32 0x00000000#32))
               (matmul d none (truncf .bf16 mn1 hlt) (truncf .bf16 (shapeCast ⟨2, ![K, N]⟩ wn hw) hlt) (constant ⟨2, ![M, N]⟩ .f32 0x00000000#32)))
         (broadcastTo ⟨2, ![M, N]⟩ (shapeCast ⟨2, ![1, N]⟩ b hb) hbr)
      = combine x mn ws wn b := by
  subst hx1 hmn1
  funext i
  obtain ⟨p, q, rfl⟩ : ∃ (p : Fin M) (q : Fin N), i = ix2 p q := ⟨i 0, i 1, eq_ix2 i⟩
  rw [combine_apply, addf_apply, addf_apply, Cert.PlainDot.matmul_zero_apply d hd, Cert.PlainDot.matmul_zero_apply d hd,
    broadcastTo_1b_ab_apply, shapeCast_self, shapeCast_self, shapeCast_self]
  rfl

/-- The host reference's value: the first product plus the bias row broadcast over the rows, then plus the second
    product. The same entries, grouped the other way. -/
theorem host_eq (d : DotDims ⟨2, ![M, K]⟩ ⟨2, ![K, N]⟩ ⟨2, ![M, N]⟩) (hd : d = DotDims.plain M K N)
    (x mn : FVec Ideal ⟨2, ![M, K]⟩ .f32) (ws wn : FVec Ideal ⟨2, ![K, N]⟩ .f32) (b : FVec Ideal ⟨2, ![1, N]⟩ .f32)
    (hbc : (⟨2, ![1, N]⟩ : Shape).BroadcastsInDim ⟨2, ![M, N]⟩ (![0, 1] : Fin 2 → Fin 2)) :
    addf (addf (Host.dotGeneral d none x ws) (broadcastInDim ⟨2, ![M, N]⟩ (![0, 1] : Fin 2 → Fin 2) hbc b)) (Host.dotGeneral d none mn wn)
      = combine x mn ws wn b := by
  funext i
  obtain ⟨p, q, rfl⟩ : ∃ (p : Fin M) (q : Fin N), i = ix2 p q := ⟨i 0, i 1, eq_ix2 i⟩
  have hbq : broadcastInDim ⟨2, ![M, N]⟩ (![0, 1] : Fin 2 → Fin 2) hbc b (ix2 p q) = b (ix2 (0 : Fin 1) q) := by
    refine broadcastInDim_apply _ hbc b (ix2 p q) (ix2 (0 : Fin 1) q) fun a => ?_
    match a with
    | ⟨0, _⟩ => rfl
    | ⟨1, _⟩ =>
      show q.val = if N = 1 then 0 else q.val
      split
      · have := q.isLt; omega
      · rfl
  rw [combine_apply, addf_apply, addf_apply, Cert.PlainDot.dotGeneral_apply d hd, Cert.PlainDot.dotGeneral_apply d hd, hbq]
  exact add_right_comm _ _ _

end Cert.Sage

end
-- ==== Proof.Region0.lean ====
/-
  The first layer's pallas_call, read as a value: whatever the TensorCore's buffers hold when the region is entered
  (`V`), the region leaves in its output array `main_v22` the layer's combine of its five operand arrays as they are
  at entry — the node features `main_arg0`, the neighbour means `main_v18`, the two transposed weight matrices
  `main_v19`, `main_v20` and the bias row `main_v21`.
  Grid point `t` handles rows `5000·t … 5000·t + 4999`: it reads those rows of the features and of the means and all
  of the weights and the bias, and writes those rows of the result. The combine reads row `p` of its first two operands
  only, so what point `t` writes back is block `t` of the whole-array combine; the twenty blocks tile the `100000` rows.
-/
import proofs.«121814_j19000935317832_1_alg».proof.Proof.Gen.KernelIdeal.Frame
import proofs.«121814_j19000935317832_1_alg».proof.Proof.Combine
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the combine of its five loaded blocks. -/
theorem pay_eq (x0 x1 : Vec Ideal S5000x64 .f32) (x2 x3 : Vec Ideal S64x32 .f32) (x4 : Vec Ideal S1x32 .f32) :
    k0_pay1 x0 x1 x2 x3 x4 = combine x0 x1 x2 x3 x4 :=
  body_eq dot_S5000x64_S64x32_S5000x32_1_0_0_1_n_n rfl x0 x1 x2 x3 x4 _ _ _ _ x0 rfl _ (shapeCast_self _ _)

/-- The printed index maps over the twenty grid points: the two row-blocked operands move with the output's row block,
    on the first column block; the weights and the bias sit at block zero; the output's row block is the point. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the combine of the operand arrays as the region finds them. -/
theorem flushed_eq (c : Dev nD) (t : Fin cfg0.N) :
    (dat0 V c).flushed 5 t = ((cfg0.win 5).blk t).view.read (Elt Ideal)
      (combine (V c main_arg0) (V c main_v18) (V c main_v19) (V c main_v20) (V c main_v21)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x32) hz, View.ld_unit_zero (S := S1x32) hz]
  rw [pay_eq]
  obtain ⟨e0, e1, e2, e3, e4, e5, e6, e7, e8, e9, e10, e11⟩ := idx_facts t
  funext j
  show combine (iblk0 V c 0 t) (iblk0 V c 1 t) (iblk0 V c 2 t) (iblk0 V c 3 t) (iblk0 V c 4 t) j
    = combine (V c main_arg0) (V c main_v18) (V c main_v19) (V c main_v20) (V c main_v21) (((cfg0.win 5).blk t).view.emb j)
  have hj0 : (j 0).val < 5000 := (j 0).isLt
  have hj1 : (j 1).val < 32 := (j 1).isLt
  have o0 : ((((cfg0.win 5).blk t).view.emb j) 0).val = win0_5.index t (0 : Fin 2) * 5000 + 1 * (j 0).val := rfl
  have o1 : ((((cfg0.win 5).blk t).view.emb j) 1).val = win0_5.index t (1 : Fin 2) * 32 + 1 * (j 1).val := rfl
  refine combine_congr (V c main_arg0) (V c main_v18) (iblk0 V c 0 t) (iblk0 V c 1 t) (V c main_v19) (V c main_v20)
    (iblk0 V c 2 t) (iblk0 V c 3 t) (V c main_v21) (iblk0 V c 4 t) (((cfg0.win 5).blk t).view.emb j) j ?_ ?_ ?_ ?_ ?_
  · intro k
    show V c main_arg0 (((cfg0.win 0).blk t).view.emb (ix2 (j 0) k)) = _
    refine congrArg _ (funext fun a => Fin.ext ?_)
    match a with
    | ⟨0, _⟩ => show win0_0.index t (0 : Fin 2) * 5000 + 1 * (j 0).val = _; rw [o0]; omega
    | ⟨1, _⟩ => show win0_0.index t (1 : Fin 2) * 64 + 1 * k.val = k.val; omega
  · intro k
    show V c main_v18 (((cfg0.win 1).blk t).view.emb (ix2 (j 0) k)) = _
    refine congrArg _ (funext fun a => Fin.ext ?_)
    match a with
    | ⟨0, _⟩ => show win0_1.index t (0 : Fin 2) * 5000 + 1 * (j 0).val = _; rw [o0]; omega
    | ⟨1, _⟩ => show win0_1.index t (1 : Fin 2) * 64 + 1 * k.val = k.val; omega
  · intro k
    show V c main_v19 (((cfg0.win 2).blk t).view.emb (ix2 k (j 1))) = _
    refine congrArg _ (funext fun a => Fin.ext ?_)
    match a with
    | ⟨0, _⟩ => show win0_2.index t (0 : Fin 2) * 64 + 1 * k.val = k.val; omega
    | ⟨1, _⟩ => show win0_2.index t (1 : Fin 2) * 32 + 1 * (j 1).val = _; rw [o1]; omega
  · intro k
    show V c main_v20 (((cfg0.win 3).blk t).view.emb (ix2 k (j 1))) = _
    refine congrArg _ (funext fun a => Fin.ext ?_)
    match a with
    | ⟨0, _⟩ => show win0_3.index t (0 : Fin 2) * 64 + 1 * k.val = k.val; omega
    | ⟨1, _⟩ => show win0_3.index t (1 : Fin 2) * 32 + 1 * (j 1).val = _; rw [o1]; omega
  · show V c main_v21 (((cfg0.win 4).blk t).view.emb (ix2 (0 : Fin 1) (j 1))) = _
    refine congrArg _ (funext fun a => Fin.ext ?_)
    match a with
    | ⟨0, _⟩ => show win0_4.index t (0 : Fin 2) * 1 + 1 * 0 = 0; omega
    | ⟨1, _⟩ => show win0_4.index t (1 : Fin 2) * 32 + 1 * (j 1).val = _; rw [o1]; omega

/-- An index of the output array is in point `t`'s block iff each coordinate is in the block's range on its axis. -/
theorem mem_blk (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v22).slice (win0_5.rect t)).set ↔ _
  rw [View.set_slice_whole, Rect.mem_set_unit]
  exact Iff.rfl

/-- Every row of the output array is in the block of the point that handles it, row / 5000. -/
theorem cover (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  refine ⟨⟨(i 0).val / 5000, by show (i 0).val / 5000 < grid0.N; rw [N_0]; omega⟩, flush0_5 _, ?_⟩
  rw [mem_blk]
  obtain ⟨-, -, -, -, -, -, -, -, -, -, e10, e11⟩ := idx_facts ⟨(i 0).val / 5000, by show (i 0).val / 5000 < grid0.N; rw [N_0]; omega⟩
  intro a
  match a with
  | ⟨0, _⟩ =>
    show win0_5.index _ (0 : Fin 2) * 5000 ≤ (i 0).val ∧ (i 0).val < win0_5.index _ (0 : Fin 2) * 5000 + 5000
    rw [e10]; show (i 0).val / 5000 * 5000 ≤ (i 0).val ∧ (i 0).val < (i 0).val / 5000 * 5000 + 5000; omega
  | ⟨1, _⟩ =>
    show win0_5.index _ (1 : Fin 2) * 32 ≤ (i 1).val ∧ (i 1).val < win0_5.index _ (1 : Fin 2) * 32 + 32
    rw [e11]; omega

/-- THE ARRAY the first layer's region leaves: the combine of its operand arrays as found at entry. -/
theorem final (c : Dev nD) :
    (dat0 V c).arrAt 5 cfg0.N = combine (V c main_arg0) (V c main_v18) (V c main_v19) (V c main_v20) (V c main_v21) :=
  (dat0 V c).arrAt_eq_of_cover 5 _ (fun t _ => flushed_eq V c t) cover

end Cert.KernelIdeal.Layer1

end
-- ==== Proof.Region1.lean ====
/-
  The second layer's pallas_call, read as a value: whatever the TensorCore's buffers hold when the region is entered
  (`V`), the region leaves in its output array `main_v45` the layer's combine of its five operand arrays as they are
  at entry — the first layer's output `main_v22`, its neighbour means `main_v41`, the two transposed weight matrices
  `main_v42`, `main_v43` and the bias row `main_v44`.
  Grid point `t` handles rows `5000·t … 5000·t + 4999`, as in the first layer; the operands are `32` wide and the
  result `16` wide. The combine reads row `p` of its first two operands only, so what point `t` writes back is block
  `t` of the whole-array combine, and the twenty blocks tile the `100000` rows.
-/
import proofs.«121814_j19000935317832_1_alg».proof.Proof.Gen.KernelIdeal.Frame
import proofs.«121814_j19000935317832_1_alg».proof.Proof.Combine
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the combine of its five loaded blocks. -/
theorem pay_eq (x0 x1 : Vec Ideal S5000x32 .f32) (x2 x3 : Vec Ideal S32x16 .f32) (x4 : Vec Ideal S1x16 .f32) :
    k1_pay1 x0 x1 x2 x3 x4 = combine x0 x1 x2 x3 x4 :=
  body_eq dot_S5000x32_S32x16_S5000x16_1_0_0_1_n_n rfl x0 x1 x2 x3 x4 _ _ _ _ _ (shapeCast_self _ _) _ (shapeCast_self _ _)

/-- The printed index maps over the twenty grid points: the two row-blocked operands move with the output's row block,
    on the first column block; the weights and the bias sit at block zero; the output's row block is the point. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the combine of the operand arrays as the region finds them. -/
theorem flushed_eq (c : Dev nD) (t : Fin cfg1.N) :
    (dat1 V c).flushed 5 t = ((cfg1.win 5).blk t).view.read (Elt Ideal)
      (combine (V c main_v22) (V c main_v41) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S5000x32) hz, View.ld_unit_zero (S := S32x16) hz, View.ld_unit_zero (S := S1x16) hz]
  rw [pay_eq]
  obtain ⟨e0, e1, e2, e3, e4, e5, e6, e7, e8, e9, e10, e11⟩ := idx_facts t
  funext j
  show combine (iblk1 V c 0 t) (iblk1 V c 1 t) (iblk1 V c 2 t) (iblk1 V c 3 t) (iblk1 V c 4 t) j
    = combine (V c main_v22) (V c main_v41) (V c main_v42) (V c main_v43) (V c main_v44) (((cfg1.win 5).blk t).view.emb j)
  have hj0 : (j 0).val < 5000 := (j 0).isLt
  have hj1 : (j 1).val < 16 := (j 1).isLt
  have o0 : ((((cfg1.win 5).blk t).view.emb j) 0).val = win1_5.index t (0 : Fin 2) * 5000 + 1 * (j 0).val := rfl
  have o1 : ((((cfg1.win 5).blk t).view.emb j) 1).val = win1_5.index t (1 : Fin 2) * 16 + 1 * (j 1).val := rfl
  refine combine_congr (V c main_v22) (V c main_v41) (iblk1 V c 0 t) (iblk1 V c 1 t) (V c main_v42) (V c main_v43)
    (iblk1 V c 2 t) (iblk1 V c 3 t) (V c main_v44) (iblk1 V c 4 t) (((cfg1.win 5).blk t).view.emb j) j ?_ ?_ ?_ ?_ ?_
  · intro k
    show V c main_v22 (((cfg1.win 0).blk t).view.emb (ix2 (j 0) k)) = _
    refine congrArg _ (funext fun a => Fin.ext ?_)
    match a with
    | ⟨0, _⟩ => show win1_0.index t (0 : Fin 2) * 5000 + 1 * (j 0).val = _; rw [o0]; omega
    | ⟨1, _⟩ => show win1_0.index t (1 : Fin 2) * 32 + 1 * k.val = k.val; omega
  · intro k
    show V c main_v41 (((cfg1.win 1).blk t).view.emb (ix2 (j 0) k)) = _
    refine congrArg _ (funext fun a => Fin.ext ?_)
    match a with
    | ⟨0, _⟩ => show win1_1.index t (0 : Fin 2) * 5000 + 1 * (j 0).val = _; rw [o0]; omega
    | ⟨1, _⟩ => show win1_1.index t (1 : Fin 2) * 32 + 1 * k.val = k.val; omega
  · intro k
    show V c main_v42 (((cfg1.win 2).blk t).view.emb (ix2 k (j 1))) = _
    refine congrArg _ (funext fun a => Fin.ext ?_)
    match a with
    | ⟨0, _⟩ => show win1_2.index t (0 : Fin 2) * 32 + 1 * k.val = k.val; omega
    | ⟨1, _⟩ => show win1_2.index t (1 : Fin 2) * 16 + 1 * (j 1).val = _; rw [o1]; omega
  · intro k
    show V c main_v43 (((cfg1.win 3).blk t).view.emb (ix2 k (j 1))) = _
    refine congrArg _ (funext fun a => Fin.ext ?_)
    match a with
    | ⟨0, _⟩ => show win1_3.index t (0 : Fin 2) * 32 + 1 * k.val = k.val; omega
    | ⟨1, _⟩ => show win1_3.index t (1 : Fin 2) * 16 + 1 * (j 1).val = _; rw [o1]; omega
  · show V c main_v44 (((cfg1.win 4).blk t).view.emb (ix2 (0 : Fin 1) (j 1))) = _
    refine congrArg _ (funext fun a => Fin.ext ?_)
    match a with
    | ⟨0, _⟩ => show win1_4.index t (0 : Fin 2) * 1 + 1 * 0 = 0; omega
    | ⟨1, _⟩ => show win1_4.index t (1 : Fin 2) * 16 + 1 * (j 1).val = _; rw [o1]; omega

/-- An index of the output array is in point `t`'s block iff each coordinate is in the block's range on its axis. -/
theorem mem_blk (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v45).slice (win1_5.rect t)).set ↔ _
  rw [View.set_slice_whole, Rect.mem_set_unit]
  exact Iff.rfl

/-- Every row of the output array is in the block of the point that handles it, row / 5000. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  refine ⟨⟨(i 0).val / 5000, by show (i 0).val / 5000 < grid1.N; rw [N_1]; omega⟩, flush1_5 _, ?_⟩
  rw [mem_blk]
  obtain ⟨-, -, -, -, -, -, -, -, -, -, e10, e11⟩ := idx_facts ⟨(i 0).val / 5000, by show (i 0).val / 5000 < grid1.N; rw [N_1]; omega⟩
  intro a
  match a with
  | ⟨0, _⟩ =>
    show win1_5.index _ (0 : Fin 2) * 5000 ≤ (i 0).val ∧ (i 0).val < win1_5.index _ (0 : Fin 2) * 5000 + 5000
    rw [e10]; show (i 0).val / 5000 * 5000 ≤ (i 0).val ∧ (i 0).val < (i 0).val / 5000 * 5000 + 5000; omega
  | ⟨1, _⟩ =>
    show win1_5.index _ (1 : Fin 2) * 16 ≤ (i 1).val ∧ (i 1).val < win1_5.index _ (1 : Fin 2) * 16 + 16
    rw [e11]; omega

/-- THE ARRAY the second layer's region leaves: the combine of its operand arrays as found at entry. -/
theorem final (c : Dev nD) :
    (dat1 V c).arrAt 5 cfg1.N = combine (V c main_v22) (V c main_v41) (V c main_v42) (V c main_v43) (V c main_v44) :=
  (dat1 V c).arrAt_eq_of_cover 5 _ (fun t _ => flushed_eq V c t) cover

end Cert.KernelIdeal.Layer2

end
-- ==== Proof.KernelValue.lean ====
/-
  The kernel's result, read as two combines. After the run the result array `main_v45` is what the second region's
  write-backs leave: the combine of the first region's output, of that output's neighbour mean, of the second layer's
  transposed weights and of its bias row; and the first region's output is the combine of the input features, of
  their neighbour mean, of the first layer's transposed weights and of its bias row. Every operand is a buffer the host
  wrote before the region, read back as its function of the launch memory.
-/
import proofs.«121814_j19000935317832_1_alg».proof.Proof.KernelHost
import proofs.«121814_j19000935317832_1_alg».proof.Proof.Region0
import proofs.«121814_j19000935317832_1_alg».proof.Proof.Region1

set_option maxRecDepth 16384

noncomputable section

namespace Cert.KernelIdeal.KernelValue

open Cert.KernelIdeal Cert.KernelIdeal.Gen Cert.KernelIdeal.HostValue Idealize.ShloMosaic Idealize.ShloMosaic.TcCoe Idealize.SL.Sem
open Cert.Sage

variable (m : (ℓ : Loc nD τ sig) → Buf (Elt Ideal) ℓ) (ρ : Dev nD → PrngReg)

/-- The first layer's output as the kernel computes it. -/
def layer1 (c : Dev nD) : FVec Ideal S100000x32 .f32 :=
  combine (m ((c : Thread nD τ).loc main_arg0))
    (mean1 (F := Ideal) (m ((c : Thread nD τ).loc main_arg0)) (m ((c : Thread nD τ).loc main_arg1)) (m ((c : Thread nD τ).loc main_arg2)))
    (transpose S64x32 [1, 0] (m ((c : Thread nD τ).loc main_arg3)) Facts₀.transposes_S32x64_S64x32_1_0)
    (transpose S64x32 [1, 0] (m ((c : Thread nD τ).loc main_arg4)) Facts₀.transposes_S32x64_S64x32_1_0)
    (shapeCast S1x32 (m ((c : Thread nD τ).loc main_arg5)) Facts₀.shapeCasts_S32_S1x32)

/-- The first region leaves the first layer's output in `main_v22`. -/
theorem layer1_eq (c : Dev nD) : (dat0 (V1 m ρ) c).arrAt 5 cfg0.N = layer1 m c := by
  rw [Layer1.final (V1 m ρ) c, V1_arg0, V1_v18, V1_v19, V1_v20, V1_v21]
  rfl

/-- The result array after the run is the second layer's combine over the first layer's output. -/
theorem result_eq (c : Dev nD) : W4 m ρ c (Proc.devRef .tc main_v45)
    = combine (layer1 m c)
        (mean2 (F := Ideal) (layer1 m c) (m ((c : Thread nD τ).loc main_arg1)) (m ((c : Thread nD τ).loc main_arg2)))
        (transpose S32x16 [1, 0] (m ((c : Thread nD τ).loc main_arg6)) Facts₀.transposes_S16x32_S32x16_1_0)
        (transpose S32x16 [1, 0] (m ((c : Thread nD τ).loc main_arg7)) Facts₀.transposes_S16x32_S32x16_1_0)
        (shapeCast S1x16 (m ((c : Thread nD τ).loc main_arg8)) Facts₀.shapeCasts_S16_S1x16) := by
  refine (W4_arr m ρ c 5).trans ?_
  rw [Layer2.final (V3 m ρ) c, V3_v22, V3_v41, V3_v42, V3_v43, V3_v44, W2_v22, W2_arg1, W2_arg2, W2_arg6, W2_arg7, W2_arg8,
    layer1_eq]

end Cert.KernelIdeal.KernelValue

end
-- ==== Proof.RefValue.lean ====
/-
  The reference's result, read as two combines. Its run ends with the result at one long composed term of the
  arguments; that term is, layer by layer, "first product plus bias, plus second product" of the layer's input and of
  the neighbour mean of that input — the host form of the combine (`Cert.Sage.host_eq`). `mean1`, `mean2` spell the
  neighbour-mean chain once, operation by operation, as the reference's @main prints it.
-/
import proofs.«121814_j19000935317832_1_alg».proof.Proof.Gen.ReferenceIdeal.Run
import proofs.«121814_j19000935317832_1_alg».proof.Proof.Combine

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Sage

variable {F : FTy → Type} [FloatOps F]

/-- The neighbour mean of 64-wide features: sum over incoming edges of the source's row, over `max(in-degree, 1)`. -/
def mean1 (x : FVec F S100000x64 .f32) (src dst : IVec S1600000 32) : FVec F S100000x64 .f32 :=
  Host.divf
    (Host.scatterAdd scatter_S100000x64_S1600000x1_S1600000x64_1_0_0_1
      (broadcastInDim S100000x64 ![] Facts₀.bcast_S_S100000x64 (constant (F := F) S_ .f32 0x00000000#32))
      (broadcastInDim S1600000x1 ![0] Facts₀.bcast_S1600000_S1600000x1_0 dst)
      (Host.gather gather_S100000x64_S1600000x1_S1600000x64_1_0_n_n_0_1_164 x
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src))))
    (broadcastInDim S100000x64 ![0, 1] Facts₀.bcast_S100000x1_S100000x64_0_1
      (broadcastInDim S100000x1 ![0] Facts₀.bcast_S100000_S100000x1_0
        (maximumf
          (Host.scatterAdd scatter_S100000_S1600000x1_S1600000_n_0_0_1
            (broadcastInDim S100000 ![] Facts₀.bcast_S_S100000 (constant (F := F) S_ .f32 0x00000000#32))
            (broadcastInDim S1600000x1 ![0] Facts₀.bcast_S1600000_S1600000x1_0 dst)
            (broadcastInDim S1600000 ![] Facts₀.bcast_S_S1600000 (constant (F := F) S_ .f32 0x3F800000#32)))
          (broadcastInDim S100000 ![] Facts₀.bcast_S_S100000 (constant (F := F) S_ .f32 0x3F800000#32)))))

/-- The neighbour mean of 32-wide features. -/
def mean2 (h : FVec F S100000x32 .f32) (src dst : IVec S1600000 32) : FVec F S100000x32 .f32 :=
  Host.divf
    (Host.scatterAdd scatter_S100000x32_S1600000x1_S1600000x32_1_0_0_1
      (broadcastInDim S100000x32 ![] Facts₀.bcast_S_S100000x32 (constant (F := F) S_ .f32 0x00000000#32))
      (broadcastInDim S1600000x1 ![0] Facts₀.bcast_S1600000_S1600000x1_0 dst)
      (Host.gather gather_S100000x32_S1600000x1_S1600000x32_1_0_n_n_0_1_132 h
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src))))
    (broadcastInDim S100000x32 ![0, 1] Facts₀.bcast_S100000x1_S100000x32_0_1
      (broadcastInDim S100000x1 ![0] Facts₀.bcast_S100000_S100000x1_0
        (maximumf
          (Host.scatterAdd scatter_S100000_S1600000x1_S1600000_n_0_0_1
            (broadcastInDim S100000 ![] Facts₀.bcast_S_S100000 (constant (F := F) S_ .f32 0x00000000#32))
            (broadcastInDim S1600000x1 ![0] Facts₀.bcast_S1600000_S1600000x1_0 dst)
            (broadcastInDim S1600000 ![] Facts₀.bcast_S_S1600000 (constant (F := F) S_ .f32 0x3F800000#32)))
          (broadcastInDim S100000 ![] Facts₀.bcast_S_S100000 (constant (F := F) S_ .f32 0x3F800000#32)))))

/-- The first layer's output as the reference computes it. -/
def layer1 (m : (ℓ : Loc nD τ sig) → Buf (Elt Ideal) ℓ) (c : Dev nD) : FVec Ideal S100000x32 .f32 :=
  combine (m ((c.tc : Thread nD τ).loc main_arg0))
    (mean1 (F := Ideal) (m ((c.tc : Thread nD τ).loc main_arg0)) (m ((c.tc : Thread nD τ).loc main_arg1)) (m ((c.tc : Thread nD τ).loc main_arg2)))
    (transpose S64x32 [1, 0] (m ((c.tc : Thread nD τ).loc main_arg3)) Facts₀.transposes_S32x64_S64x32_1_0)
    (transpose S64x32 [1, 0] (m ((c.tc : Thread nD τ).loc main_arg4)) Facts₀.transposes_S32x64_S64x32_1_0)
    (broadcastInDim S1x32 ![1] Facts₀.bcast_S32_S1x32_1 (m ((c.tc : Thread nD τ).loc main_arg5)))

/-- The reference's result is the second layer's combine of the first layer's output and its neighbour mean. -/
theorem result_eq (m : (ℓ : Loc nD τ sig) → Buf (Elt Ideal) ℓ) (c : Dev nD) :
    Value.res_main_v53 (F := Ideal) m c
      = combine (layer1 m c)
          (mean2 (F := Ideal) (layer1 m c) (m ((c.tc : Thread nD τ).loc main_arg1)) (m ((c.tc : Thread nD τ).loc main_arg2)))
          (transpose S32x16 [1, 0] (m ((c.tc : Thread nD τ).loc main_arg6)) Facts₀.transposes_S16x32_S32x16_1_0)
          (transpose S32x16 [1, 0] (m ((c.tc : Thread nD τ).loc main_arg7)) Facts₀.transposes_S16x32_S32x16_1_0)
          (broadcastInDim S1x16 ![1] Facts₀.bcast_S16_S1x16_1 (m ((c.tc : Thread nD τ).loc main_arg8))) := by
  unfold Value.res_main_v53
  rw [host_eq dot_S100000x64_S64x32_S100000x32_1_0_0_1_n_n rfl, host_eq dot_S100000x32_S32x16_S100000x16_1_0_0_1_n_n rfl]
  rfl

end Cert.ReferenceIdeal.RefValue

end
-- ==== Proof.lean ====
/-
  Two-layer GraphSAGE with the mean aggregator: the Pallas kernel against its jnp reference, over the extended reals.

  Both programs do the same host work per layer — wrap the edge sources into range, gather the node features at them,
  sum the gathered rows into their destination rows, count in-degrees the same way, divide by `max(degree, 1)` — and
  differ only in the affine combine  `h·Wself^T + b + mean·Wneigh^T`: the kernel runs it as a pallas_call over twenty
  blocks of 5000 rows (two products into zero accumulators, added, the bias row added last; operands truncated to
  bf16, which is the identity at the ideal values), the reference as two `dot_general`s with the bias added to the first
  product before the second is added. Entry by entry both are
      Σ_k h(p,k)·Ws(k,q) + Σ_k mean(p,k)·Wn(k,q) + b(q)
  up to the grouping of a three-term sum, and addition of extended reals is commutative and associative: the claim needs
  no finiteness of the inputs. The second layer consumes the first layer's output on both sides, so equality of the
  first layer's outputs carries through the second layer's host chain unopened.

  The frames of the two kernel programs are the generated ones; the reference's frame is its generated run with the
  result dropped; the ideal pass rewrote nothing, so the idealization conjunct is trivial.
-/
import proofs.«121814_j19000935317832_1_alg».proof.Defs
import proofs.«121814_j19000935317832_1_alg».proof.Proof.Gen.Kernel
import proofs.«121814_j19000935317832_1_alg».proof.Proof.Gen.Kernel.Frame
import proofs.«121814_j19000935317832_1_alg».proof.Proof.Gen.KernelIdeal
import proofs.«121814_j19000935317832_1_alg».proof.Proof.Gen.KernelIdeal.Frame
import proofs.«121814_j19000935317832_1_alg».proof.Proof.Gen.ReferenceIdeal
import proofs.«121814_j19000935317832_1_alg».proof.Proof.Gen.ReferenceIdeal.Run
import proofs.«121814_j19000935317832_1_alg».proof.Proof.Gen.Pre_finite_inputs
import proofs.«121814_j19000935317832_1_alg».proof.Proof.KernelRun
import proofs.«121814_j19000935317832_1_alg».proof.Proof.KernelValue
import proofs.«121814_j19000935317832_1_alg».proof.Proof.RefValue
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-! ## The two programs spell the same host functions -/

/-- The neighbour mean of the first layer is one function in both programs (the same operations over the same
    dimension records). -/
theorem mean1_eq (x : FVec Ideal Cert.KernelIdeal.S100000x64 .f32) (s d : IVec Cert.KernelIdeal.S1600000 32) :
    Cert.ReferenceIdeal.RefValue.mean1 (F := Ideal) x s d = Cert.KernelIdeal.HostValue.mean1 (F := Ideal) x s d := rfl

/-- The neighbour mean of the second layer likewise. -/
theorem mean2_eq (h : FVec Ideal Cert.KernelIdeal.S100000x32 .f32) (s d : IVec Cert.KernelIdeal.S1600000 32) :
    Cert.ReferenceIdeal.RefValue.mean2 (F := Ideal) h s d = Cert.KernelIdeal.HostValue.mean2 (F := Ideal) h s d := rfl

/-- A bias vector laid out as one row: the reference's `broadcast_in_dim` along the second axis and the kernel's reshape
    both put entry `q` of the vector at `(0, q)`. -/
theorem bias_row {n : ℕ} (b : (⟨1, ![n]⟩ : Shape).Idx → EReal)
    (hb : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) hb b = shapeCast ⟨2, ![1, n]⟩ b hs := by
  funext i
  obtain ⟨u, q, rfl⟩ : ∃ (u : Fin 1) (q : Fin n), i = ix2 u q := ⟨i 0, i 1, eq_ix2 i⟩
  rw [shapeCast_a_1a_apply]
  refine broadcastInDim_apply _ hb b (ix2 u q) (ix1 q) fun a => ?_
  match a with
  | ⟨0, _⟩ =>
    show q.val = if n = 1 then 0 else q.val
    split
    · have := q.isLt; omega
    · rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: each is the second layer's
    combine over the first layer's, the host chains and the transposed weights the same terms, the bias rows equal
    entry by entry. -/
theorem algebraic : Cert.algebraic_KernelIdeal_ReferenceIdeal := by
  intro m ρ m' ρ' _ hagree
  refine ⟨fun c => Cert.KernelIdeal.Gen.W4 m ρ c (Proc.devRef .tc Cert.KernelIdeal.main_v45),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  show _ = Cert.KernelIdeal.Gen.W4 m ρ c (Proc.devRef .tc Cert.KernelIdeal.main_v45)
  rw [Cert.ReferenceIdeal.RefValue.result_eq, Cert.KernelIdeal.KernelValue.result_eq]
  unfold Cert.ReferenceIdeal.RefValue.layer1 Cert.KernelIdeal.KernelValue.layer1
  rw [a0, a1, a2, a3, a4, a5, a6, a7, a8, mean1_eq, mean2_eq, bias_row, bias_row]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
